-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x2048 .f32 .bf16
  ∧ IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel

variable [Facts]

def fn {F : FTy → Type} [FloatOps F] (main_arg0 : FVec F S262144x512 .f32) (main_arg1 : IVec S262144 32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  main_v3
-- ==== Kernel.lean ====
abbrev S262144x512 : Shape := ⟨2, ![262144, 512]⟩
abbrev S262144 : Shape := ⟨1, ![262144]⟩
abbrev S2x1024x512 : Shape := ⟨3, ![2, 1024, 512]⟩
abbrev S2x1024x1 : Shape := ⟨3, ![2, 1024, 1]⟩
abbrev S4096x512 : Shape := ⟨2, ![4096, 512]⟩
abbrev S4096 : Shape := ⟨1, ![4096]⟩
abbrev S1x1024x512 : Shape := ⟨3, ![1, 1024, 512]⟩
abbrev S1x1024x1 : Shape := ⟨3, ![1, 1024, 1]⟩
abbrev S1024x512 : Shape := ⟨2, ![1024, 512]⟩
abbrev S1024x1 : Shape := ⟨2, ![1024, 1]⟩
abbrev S2048x512 : Shape := ⟨2, ![2048, 512]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1000x512 : Shape := ⟨2, ![1000, 512]⟩
abbrev S1000 : Shape := ⟨1, ![1000]⟩
abbrev S_ : Shape := ⟨0, ![]⟩
abbrev S1000x1 : Shape := ⟨2, ![1000, 1]⟩

abbrev nBuf : Space → Nat
  | .hbm => 22
  | .vmem => 8
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S2x1024x512, .f32⟩
  | .hbm, ⟨3, _⟩ => ⟨S2x1024x1, .f32⟩
  | .hbm, ⟨4, _⟩ => ⟨S1x1024x512, .f32⟩
  | .hbm, ⟨5, _⟩ => ⟨S1024x512, .f32⟩
  | .hbm, ⟨6, _⟩ => ⟨S1x1024x512, .f32⟩
  | .hbm, ⟨7, _⟩ => ⟨S1024x512, .f32⟩
  | .hbm, ⟨8, _⟩ => ⟨S1024x512, .f32⟩
  | .hbm, ⟨9, _⟩ => ⟨S1x1024x1, .f32⟩
  | .hbm, ⟨10, _⟩ => ⟨S1024, .f32⟩
  | .hbm, ⟨11, _⟩ => ⟨S1x1024x1, .f32⟩
  | .hbm, ⟨12, _⟩ => ⟨S1024, .f32⟩
  | .hbm, ⟨13, _⟩ => ⟨S1024, .f32⟩
  | .hbm, ⟨14, _⟩ => ⟨S1000x512, .f32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S1000x1, .f32⟩
  | .hbm, ⟨20, _⟩ => ⟨S1000x512, .f32⟩
  | .hbm, ⟨21, _⟩ => ⟨S1000x512, .f32⟩
  | .local _ .vmem, ⟨0, _⟩ => ⟨S4096x512, .f32⟩
  | .local _ .vmem, ⟨1, _⟩ => ⟨S4096x512, .f32⟩
  | .local _ .vmem, ⟨2, _⟩ => ⟨S4096, .i32⟩
  | .local _ .vmem, ⟨3, _⟩ => ⟨S4096, .i32⟩
  | .local _ .vmem, ⟨4, _⟩ => ⟨S1x1024x512, .f32⟩
  | .local _ .vmem, ⟨5, _⟩ => ⟨S1x1024x512, .f32⟩
  | .local _ .vmem, ⟨6, _⟩ => ⟨S1x1024x1, .f32⟩
  | .local _ .vmem, ⟨7, _⟩ => ⟨S1x1024x1, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  iota_S1024x1_d0_w32 : S1024x1.Iotas .tc 32 [0]
  inb_S4096x512_S2048x512_0_0 : ∀ a, (![0, 0] : Fin 2 → Nat) a + S2048x512.size a ≤ S4096x512.size a
  h_S2048x512 : 0 < S2048x512.numel
  inb_S4096_S2048_0 : ∀ a, (![0] : Fin 1 → Nat) a + S2048.size a ≤ S4096.size a
  h_S2048 : 0 < S2048.numel
  shapeCasts_S2048_S1x2048 : S2048.ShapeCasts S1x2048
  broadcasts_S1x2048_S1024x2048 : S1x2048.Broadcasts S1024x2048
  broadcasts_S1024x1_S1024x2048 : S1024x1.Broadcasts S1024x2048
  natLt_1_32 : 1 < 32
  bitsLt_bf16_f32 : FTy.bits .bf16 < FTy.bits .f32
  reduces_S1024x2048_S1024 : S1024x2048.Reduces [1] S1024
  shapeCasts_S1024_S1024x1 : S1024.ShapeCasts S1024x1
  inb_S4096x512_S2048x512_2048_0 : ∀ a, (![2048, 0] : Fin 2 → Nat) a + S2048x512.size a ≤ S4096x512.size a
  inb_S4096_S2048_2048 : ∀ a, (![2048] : Fin 1 → Nat) a + S2048.size a ≤ S4096.size a
  slices_S2x1024x512_S1x1024x512_0_0_0 : S2x1024x512.Slices ![0, 0, 0] S1x1024x512
  slices_S2x1024x512_S1x1024x512_1_0_0 : S2x1024x512.Slices ![1, 0, 0] S1x1024x512
  slices_S2x1024x1_S1x1024x1_0_0_0 : S2x1024x1.Slices ![0, 0, 0] S1x1024x1
  shapeCasts_S1x1024x1_S1024 : S1x1024x1.ShapeCasts S1024
  slices_S2x1024x1_S1x1024x1_1_0_0 : S2x1024x1.Slices ![1, 0, 0] S1x1024x1
  slices_S1024x512_S1000x512_0_0 : S1024x512.Slices ![0, 0] S1000x512
  slices_S1024_S1000_0 : S1024.Slices ![0] S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S262144.size a
  hwx0_1 : ∀ i : grid0.Coords, EltTy.bits .i32 = 32 ∨ (Rect.block (s := S262144) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S2x1024x512.size a
  hwx0_2 : ∀ i : grid0.Coords, EltTy.bits .f32 = 32 ∨ (Rect.block (s := S2x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x512 : Shape := ⟨2, ![262144, 512]⟩
abbrev S262144 : Shape := ⟨1, ![262144]⟩
abbrev S_ : Shape := ⟨0, ![]⟩
abbrev S1000x512 : Shape := ⟨2, ![1000, 512]⟩
abbrev S262144x1 : Shape := ⟨2, ![262144, 1]⟩
abbrev S1000 : Shape := ⟨1, ![1000]⟩
abbrev S1000x1 : Shape := ⟨2, ![1000, 1]⟩

abbrev nBuf : Space → Nat
  | .hbm => 18
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S_, .f32⟩
  | .hbm, ⟨3, _⟩ => ⟨S1000x512, .f32⟩
  | .hbm, ⟨4, _⟩ => ⟨S262144x1, .i32⟩
  | .hbm, ⟨5, _⟩ => ⟨S1000x512, .f32⟩
  | .hbm, ⟨6, _⟩ => ⟨S_, .f32⟩
  | .hbm, ⟨7, _⟩ => ⟨S262144, .f32⟩
  | .hbm, ⟨8, _⟩ => ⟨S_, .f32⟩
  | .hbm, ⟨9, _⟩ => ⟨S1000, .f32⟩
  | .hbm, ⟨10, _⟩ => ⟨S262144x1, .i32⟩
  | .hbm, ⟨11, _⟩ => ⟨S1000, .f32⟩
  | .hbm, ⟨12, _⟩ => ⟨S_, .f32⟩
  | .hbm, ⟨13, _⟩ => ⟨S1000, .f32⟩
  | .hbm, ⟨14, _⟩ => ⟨S1000, .f32⟩
  | .hbm, ⟨15, _⟩ => ⟨S1000x1, .f32⟩
  | .hbm, ⟨16, _⟩ => ⟨S1000x512, .f32⟩
  | .hbm, ⟨17, _⟩ => ⟨S1000x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S1000x512 : S_.BroadcastsInDim S1000x512 (![] : Fin 0 → Fin S1000x512.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  scatter_S1000x512_S262144x1_S262144x512_1_0_0_1_wf : ScatterDims.WF S1000x512 S262144x1 S262144x512 [1] [0] [0] 1
  scatter_S1000_S262144x1_S262144_n_0_0_1_wf : ScatterDims.WF S1000 S262144x1 S262144 [] [0] [0] 1

variable [Facts₀]

def scatter_S1000x512_S262144x1_S262144x512_1_0_0_1 : ScatterDims S1000x512 S262144x1 S262144x512 where
  updateWindowDims := [1]
  insertedWindowDims := [0]
  scatterDimsToOperandDims := [0]
  indexVectorDim := 1
  wf := scatter_S1000x512_S262144x1_S262144x512_1_0_0_1_wf
def scatter_S1000_S262144x1_S262144_n_0_0_1 : ScatterDims S1000 S262144x1 S262144 where
  updateWindowDims := []
  insertedWindowDims := [0]
  scatterDimsToOperandDims := [0]
  indexVectorDim := 1
  wf := scatter_S1000_S262144x1_S262144_n_0_0_1_wf

class Facts : Prop extends Facts₀ where

variable [Facts]
-- ==== Proof.Pieces.lean ====
/-
  What one grid point leaves in the two accumulator blocks, as the body's arithmetic.

  A grid point holds 4096 rows of the features and their 4096 labels. The body works through them in two halves
  of 2048 rows: each half adds, to the [1024, 512] block of sums, the product of the half's one-hot matrix
  (class by row) with the half's features, and adds, to the [1024, 1] block of counts, the one-hot matrix's row
  sums. At the first point of each pass over the inner grid axis both blocks are first set to zero; at every
  other point they start from what the point before left. Every store writes a whole block, so what a point
  leaves is the payload of its last store, in which the block read back is the payload of the store before.
-/
import proofs.«426212_j24893630447945_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl

/-- A load of a whole block after a store of the whole block reads that store's payload, whatever was stored
    before it. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-- The class numbers 0 … 1023 down a column. -/
abbrev classIds : IVec S1024x1 32 := iota .tc S1024x1 32 [0] iota_S1024x1_d0_w32

/-- Rows 0 … 2047 of a point's feature block, rows 2048 … 4095 of it, and the same two halves of its labels. -/
abbrev featLo (x0 : Vec F S4096x512 .f32) : Vec F S2048x512 .f32 :=
  View.ld x0 (Rect.unit ![0, 0] S2048x512.size inb_S4096x512_S2048x512_0_0)
abbrev featHi (x0 : Vec F S4096x512 .f32) : Vec F S2048x512 .f32 :=
  View.ld x0 (Rect.unit ![2048, 0] S2048x512.size inb_S4096x512_S2048x512_2048_0)
abbrev labLo (x1 : Vec F S4096 .i32) : Vec F S2048 .i32 :=
  View.ld x1 (Rect.unit ![0] S2048.size inb_S4096_S2048_0)
abbrev labHi (x1 : Vec F S4096 .i32) : Vec F S2048 .i32 :=
  View.ld x1 (Rect.unit ![2048] S2048.size inb_S4096_S2048_2048)

/-- The block of sums after a point that starts from the block `s`: both halves' products added in turn. -/
def sumsStep (x0 : Vec F S4096x512 .f32) (x1 : Vec F S4096 .i32) (s : Vec F S1x1024x512 .f32) : Vec F S1x1024x512 .f32 :=
  k0_pay2 (F := F) classIds (featHi x0) (k0_pay9 (F := F) (labHi x1)) (k0_pay7 (F := F) (featLo x0) (labLo x1) s)

/-- The block of counts after a point that starts from the block `n`: both halves' one-hot row sums added in turn. -/
def cntStep (x1 : Vec F S4096 .i32) (n : Vec F S1x1024x1 .f32) : Vec F S1x1024x1 .f32 :=
  k0_pay3 (F := F) classIds (k0_pay9 (F := F) (labHi x1)) (k0_pay8 (F := F) (labLo x1) n)

/-- A point that is not the first of its pass: the sums continue from what the point before left. -/
theorem out_B_2 (c : Dev nD) (i : grid0.Coords) (arg2 : Memref sig .tc .vmem S4096x512 .f32) (harg2 : arg2.IsWhole) (arg3 : Memref sig .tc .vmem S4096 .i32) (harg3 : arg3.IsWhole) (arg4 : Memref sig .tc .vmem S1x1024x512 .f32) (harg4 : arg4.IsWhole) (arg5 : Memref sig .tc .vmem S1x1024x1 .f32) (harg5 : arg5.IsWhole) (hc0 : ¬cond0_0 i)
    (x0 : Vec F S4096x512 .f32) (x1 : Vec F S4096 .i32) (xo2 : Vec F S1x1024x512 .f32) (xo3 : Vec F S1x1024x1 .f32) :
    out0_B_2 c i arg2 harg2 arg3 harg3 arg4 harg4 arg5 harg5 hc0 x0 x1 xo2 xo3 = sumsStep x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_cons_unit_zero (S := S1x1024x512) hz3, View.readCov_unit_zero (S := S1x1024x512) _ hz3]
  unfold sumsStep
  simp only [View.readAt_eq_ld, harg2.read_unread, harg3.read_unread, harg4.read_unread, View.ld_unit_zero (S := S1x1024x512) hz3]

/-- The same point's counts. -/
theorem out_B_3 (c : Dev nD) (i : grid0.Coords) (arg2 : Memref sig .tc .vmem S4096x512 .f32) (harg2 : arg2.IsWhole) (arg3 : Memref sig .tc .vmem S4096 .i32) (harg3 : arg3.IsWhole) (arg4 : Memref sig .tc .vmem S1x1024x512 .f32) (harg4 : arg4.IsWhole) (arg5 : Memref sig .tc .vmem S1x1024x1 .f32) (harg5 : arg5.IsWhole) (hc0 : ¬cond0_0 i)
    (x0 : Vec F S4096x512 .f32) (x1 : Vec F S4096 .i32) (xo2 : Vec F S1x1024x512 .f32) (xo3 : Vec F S1x1024x1 .f32) :
    out0_B_3 c i arg2 harg2 arg3 harg3 arg4 harg4 arg5 harg5 hc0 x0 x1 xo2 xo3 = cntStep x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_cons_unit_zero (S := S1x1024x1) hz3, View.readCov_unit_zero (S := S1x1024x1) _ hz3]
  unfold cntStep
  simp only [View.readAt_eq_ld, harg3.read_unread, harg5.read_unread, View.ld_unit_zero (S := S1x1024x1) hz3]

/-- The first point of a pass: the sums start from the zero block. -/
theorem out_A_2 (c : Dev nD) (i : grid0.Coords) (arg2 : Memref sig .tc .vmem S4096x512 .f32) (harg2 : arg2.IsWhole) (arg3 : Memref sig .tc .vmem S4096 .i32) (harg3 : arg3.IsWhole) (arg4 : Memref sig .tc .vmem S1x1024x512 .f32) (harg4 : arg4.IsWhole) (arg5 : Memref sig .tc .vmem S1x1024x1 .f32) (harg5 : arg5.IsWhole) (hc0 : cond0_0 i)
    (x0 : Vec F S4096x512 .f32) (x1 : Vec F S4096 .i32) :
    out0_A_2 c i arg2 harg2 arg3 harg3 arg4 harg4 arg5 harg5 hc0 x0 x1 = sumsStep x0 x1 (k0_pay4 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1024x512) hz3, readCov_cons_whole (S := S1x1024x512) _ hz3]
  unfold sumsStep
  simp only [View.readAt_eq_ld, harg2.read_unread, harg3.read_unread, View.readCov_unit_zero (S := S1x1024x512) _ hz3]

/-- The same point's counts. -/
theorem out_A_3 (c : Dev nD) (i : grid0.Coords) (arg2 : Memref sig .tc .vmem S4096x512 .f32) (harg2 : arg2.IsWhole) (arg3 : Memref sig .tc .vmem S4096 .i32) (harg3 : arg3.IsWhole) (arg4 : Memref sig .tc .vmem S1x1024x512 .f32) (harg4 : arg4.IsWhole) (arg5 : Memref sig .tc .vmem S1x1024x1 .f32) (harg5 : arg5.IsWhole) (hc0 : cond0_0 i)
    (x0 : Vec F S4096x512 .f32) (x1 : Vec F S4096 .i32) :
    out0_A_3 c i arg2 harg2 arg3 harg3 arg4 harg4 arg5 harg5 hc0 x0 x1 = cntStep x1 (k0_pay5 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1024x1) hz3, readCov_cons_whole (S := S1x1024x1) _ hz3]
  unfold cntStep
  simp only [View.readAt_eq_ld, harg3.read_unread, View.readCov_unit_zero (S := S1x1024x1) _ hz3]

end Cert.KernelIdeal.Pieces

end
-- ==== Proof.Spec.lean ====
/-
  Per-class sums of rows, as sums over row numbers.

  Row n of the features belongs to class c when its label word is the word of c. The weight of row n for class c
  is 1 or 0 accordingly; a class's sum in column a is the sum over all rows of weight times entry, its count the
  sum of the weights. Sums over row numbers are written over ranges of naturals so that a range splits into the
  consecutive stretches a tiled pass over the rows visits.
-/
import Idealize.ShloMosaic.Lib.ValueIdx
import Idealize.ShloMosaic.Lib.StableHlo.Predicate
import Idealize.ShloMosaic.PureOps.Ideal.Laws

noncomputable section

namespace Cert.SegMean

open Idealize.ShloMosaic Idealize.ShloMosaic.ValueIdx

/-- The weight of a row whose label word is `w` for class `p`: one when the word is `p`'s, else zero. -/
def hit (w : BitVec 32) (p : ℕ) : EReal := if w = BitVec.ofNat 32 p then 1 else 0

/-- An equality test of two words, widened to a word and read as a signed integer, is one or zero. -/
theorem onehot_word (w v : BitVec 32) :
    ((((IntOp.cmpi .eq w v).setWidth 32).toInt : ℝ) : EReal) = if w = v then 1 else 0 := by
  by_cases h : w = v
  · rw [StableHlo.Predicate.cmpi_eq_iff.mpr h, if_pos h]
    norm_num
  · rw [eq_zero_of_ne_one (mt StableHlo.Predicate.cmpi_eq_iff.mp h), if_neg h]
    norm_num

/-- The features' and the labels' shapes, and the result's. -/
abbrev SX : Shape := ⟨2, ![262144, 512]⟩
abbrev SL : Shape := ⟨1, ![262144]⟩
abbrev SO : Shape := ⟨2, ![1000, 512]⟩

/-- Row `n`'s weight for class `p` (zero past the last row). -/
def rowHit (lab : SL.Idx → BitVec 32) (p : ℕ) (n : ℕ) : EReal :=
  if h : n < 262144 then hit (lab (ix1 ⟨n, h⟩)) p else 0

/-- Row `n`'s contribution to class `p` in column `q`: weight times entry (zero past the last row). -/
def rowTerm (x : SX.Idx → EReal) (lab : SL.Idx → BitVec 32) (p : ℕ) (q : Fin 512) (n : ℕ) : EReal :=
  if h : n < 262144 then hit (lab (ix1 ⟨n, h⟩)) p * x (ix2 ⟨n, h⟩ q) else 0

/-- Class `p`'s sum in column `q` over all rows, and its number of rows. -/
def classSum (x : SX.Idx → EReal) (lab : SL.Idx → BitVec 32) (p : ℕ) (q : Fin 512) : EReal :=
  ∑ n ∈ Finset.range 262144, rowTerm x lab p q n
def classCnt (lab : SL.Idx → BitVec 32) (p : ℕ) : EReal := ∑ n ∈ Finset.range 262144, rowHit lab p n

/-- The per-class mean: a class's sum over its number of rows, a class with no row counted as one row
    (the count is compared with the float word of one). -/
def mean (x : SX.Idx → EReal) (lab : SL.Idx → BitVec 32) : SO.Idx → EReal := fun i =>
  Ideal.div (classSum x lab (i 0).val (i 1)) (max (classCnt lab (i 0).val) (Ideal.ofBits .f32 0x3F800000#32))

end Cert.SegMean

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.Payload.lean ====
/-
  One half of a grid point's work, read at an entry.

  A half holds 2048 rows `xh` of features with labels `lh`. Its one-hot matrix has, at (p, k), the weight of
  row k for class p. Adding the matrix product to a block of sums `s` leaves, at (p, q), `s (p, q)` plus the
  sum over the half's rows of weight times entry in column q; adding the matrix's row sums to a block of counts
  `n` leaves, at p, `n p` plus the sum of the weights. Rounding the operands to bf16 changes nothing over the
  extended reals.
-/
import proofs.«426212_j24893630447945_3_alg».proof.Proof.Pieces
import proofs.«426212_j24893630447945_3_alg».proof.Proof.Spec
import proofs.«426212_j24893630447945_3_alg».proof.Proof.LibPlainDot
import proofs.«426212_j24893630447945_3_alg».proof.Proof.LibColumn
import proofs.«426212_j24893630447945_3_alg».proof.Proof.LibRowRead
import Idealize.ShloMosaic.Lib.ValueLayout

set_option maxRecDepth 16384

noncomputable section

open Idealize.ShloMosaic Idealize.ShloMosaic.TcCoe Idealize.SL.Sem Idealize.ShloMosaic.ValueIdx

namespace Cert.KernelIdeal.Payload

open Cert.KernelIdeal Cert.KernelIdeal.Gen Cert.KernelIdeal.Pieces Cert.SegMean

/-- The labels of a half as one row. -/
theorem labRow_apply (lh : Vec Ideal S2048 .i32) (u : Fin 1) (k : Fin 2048) :
    k0_pay9 (F := Ideal) lh (ix2 u k) = lh (ix1 k) := by
  unfold k0_pay9
  exact shapeCast_a_1a_apply _ _ u k

/-- The class numbers down a column: entry p is the word of p. -/
theorem classIds_apply (p : Fin 1024) (z : Fin 1) : classIds (ix2 p z) = BitVec.ofNat 32 p.val :=
  iota_single_apply .tc S1024x1 32 0 iota_S1024x1_d0_w32 (ix2 p z)

/-- The one-hot matrix of a label row against a class column. -/
theorem onehot_apply (v3 : IVec S1024x1 32) (v32 : IVec S1x2048 32) (p : Fin 1024) (k : Fin 2048) :
    k0_pay1 (F := Ideal) v3 v32 (ix2 p k) = if v32 (ix2 (0 : Fin 1) k) = v3 (ix2 p (0 : Fin 1)) then 1 else 0 := by
  unfold k0_pay1
  rw [sitofp_apply, extui_apply]
  show ((((IntOp.cmpi .eq (broadcastTo S1024x2048 v32 broadcasts_S1x2048_S1024x2048 (ix2 p k))
    (broadcastTo S1024x2048 v3 broadcasts_S1024x1_S1024x2048 (ix2 p k))).setWidth 32).toInt : ℝ) : EReal) = _
  rw [broadcastTo_1b_ab_apply, Column.broadcastTo_a1_ab_apply]
  exact onehot_word _ _

/-- The one-hot matrix of a half's labels: at (p, k) the weight of row k for class p. -/
theorem onehot_half_apply (lh : Vec Ideal S2048 .i32) (p : Fin 1024) (k : Fin 2048) :
    k0_pay1 (F := Ideal) classIds (k0_pay9 (F := Ideal) lh) (ix2 p k) = hit (lh (ix1 k)) p.val := by
  rw [onehot_apply, labRow_apply, classIds_apply]
  rfl

/-- A half's product added to a block of sums. -/
theorem halfSums_apply (xh : Vec Ideal S2048x512 .f32) (lh : Vec Ideal S2048 .i32) (s : Vec Ideal S1x1024x512 .f32)
    (u : Fin 1) (p : Fin 1024) (q : Fin 512) :
    k0_pay2 (F := Ideal) classIds xh (k0_pay9 (F := Ideal) lh) s (ix3 u p q)
      = s (ix3 (0 : Fin 1) p q) + ∑ k : Fin 2048, hit (lh (ix1 k)) p.val * xh (ix2 k q) := by
  unfold k0_pay2
  refine (shapeCast_ab_1ab_apply _ _ u p q).trans ?_
  refine congrArg₂ (· + ·) (shapeCast_1ab_ab_apply s _ p q) ?_
  refine (PlainDot.matmul_zero_apply dot_S1024x2048_S2048x512_S1024x512_1_0_0_1_n_n rfl rfl rfl rfl rfl rfl rfl rfl none _ _ p q).trans ?_
  refine Finset.sum_congr rfl fun k _ => ?_
  rw [truncf_apply, truncf_apply, onehot_half_apply]

/-- A half's one-hot row sums added to a block of counts. -/
theorem halfCnt_apply (lh : Vec Ideal S2048 .i32) (n : Vec Ideal S1x1024x1 .f32) (u : Fin 1) (p : Fin 1024) (z : Fin 1) :
    k0_pay3 (F := Ideal) classIds (k0_pay9 (F := Ideal) lh) n (ix3 u p z)
      = n (ix3 (0 : Fin 1) p z) + ∑ k : Fin 2048, hit (lh (ix1 k)) p.val := by
  unfold k0_pay3
  refine (shapeCast_ab_1ab_apply _ _ u p z).trans ?_
  refine congrArg₂ (· + ·) (shapeCast_1ab_ab_apply n _ p z) ?_
  refine (Column.shapeCast_a_a1_apply _ _ p z).trans ?_
  refine (Cert.RowRead.rowSum_f32 _ _ _ _ p).trans ?_
  exact Finset.sum_congr rfl fun k _ => onehot_half_apply lh p k

end Cert.KernelIdeal.Payload

end
-- ==== Proof.Ranges.lean ====
/-
  Sums over consecutive stretches of row numbers.

  A stretch of 4096 consecutive rows starting at row `a` is its first 2048 rows followed by its last 2048 rows;
  a sum over the stretch is the sum of the two halves' sums. Stated over the extended reals, where addition is
  commutative and associative whatever the terms.
-/
import Mathlib.Algebra.BigOperators.Intervals
import Mathlib.Algebra.BigOperators.Fin
import Mathlib.Data.EReal.Basic

namespace Cert.SegMean

/-- Two consecutive runs of 2048 terms, each indexed from zero, are one run of 4096 consecutive terms. -/
theorem sum_two_halves (f : ℕ → EReal) (a : ℕ) :
    (∑ k : Fin 2048, f (a + k.val)) + ∑ k : Fin 2048, f (a + 2048 + k.val) = ∑ n ∈ Finset.Ico a (a + 4096), f n := by
  rw [Finset.sum_Ico_eq_sum_range, show a + 4096 - a = 2048 + 2048 by omega, Finset.sum_range_add,
    Fin.sum_univ_eq_sum_range (fun k => f (a + k)) 2048, Fin.sum_univ_eq_sum_range (fun k => f (a + 2048 + k)) 2048]
  refine congrArg₂ (· + ·) rfl (Finset.sum_congr rfl fun k _ => ?_)
  rw [Nat.add_assoc]

/-- A stretch that ends where the next begins: the sums add. -/
theorem sum_stretch_succ (f : ℕ → EReal) {a b c : ℕ} (hab : a ≤ b) (hbc : b ≤ c) :
    (∑ n ∈ Finset.Ico a b, f n) + ∑ n ∈ Finset.Ico b c, f n = ∑ n ∈ Finset.Ico a c, f n :=
  Finset.sum_Ico_consecutive f hab hbc

end Cert.SegMean
-- ==== Proof.Accum.lean ====
/-
  What the two accumulator blocks hold after each grid point.

  The grid has 64 points; point t fetches rows 4096 t … 4096 t + 4095 of the features and of the labels. The
  inner grid axis has 32 points, so a pass is 32 consecutive points, that is 131072 consecutive rows, and the
  two passes are the two halves of the rows. After point t the block of sums holds, at (p, q), the sum over the
  rows from the start of t's pass up to the end of t's rows of weight-for-class-p times entry in column q, and
  the block of counts holds the sum of the weights: at the first point of a pass the blocks start from zero, at
  every other point from what the point before left, and consecutive stretches of rows add up.
-/
import proofs.«426212_j24893630447945_3_alg».proof.Proof.Payload
import proofs.«426212_j24893630447945_3_alg».proof.Proof.Ranges
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Pieces Cert.KernelIdeal.Payload Cert.SegMean

variable (m : (ℓ : Loc nD τ sig) → Buf (Elt Ideal) ℓ)

/-- The features and the labels as the region finds them. -/
abbrev feats (c : Dev nD) : SX.Idx → EReal := V m c main_arg0
abbrev labs (c : Dev nD) : SL.Idx → BitVec 32 := V m c main_arg1

/-- The blocks point `t` fetches. -/
abbrev fblk (c : Dev nD) (t : Fin cfg0.N) : Vec Ideal S4096x512 .f32 := iblk m c 0 t
abbrev lblk (c : Dev nD) (t : Fin cfg0.N) : Vec Ideal S4096 .i32 := iblk m c 1 t

theorem lt64 (t : Fin cfg0.N) : t.val < 64 := lt_of_lt_of_eq t.isLt (show cfg0.N = 64 from N_0)

/-- Point t's block index is t, for both inputs. -/
theorem idx_feat : ∀ t : Fin cfg0.N, win0_0.index t 0 = t.val ∧ win0_0.index t 1 = 0 :=
  (by decide +kernel : ∀ t : Fin grid0.N, win0_0.index t 0 = t.val ∧ win0_0.index t 1 = 0)
theorem idx_lab : ∀ t : Fin cfg0.N, win0_1.index t 0 = t.val :=
  (by decide +kernel : ∀ t : Fin grid0.N, win0_1.index t 0 = t.val)

/-- Row r of point t's feature block is row 4096 t + r of the features. -/
theorem fblk_apply (c : Dev nD) (t : Fin cfg0.N) (r : Fin 4096) (q : Fin 512) :
    fblk m c t (ix2 r q) = feats m c (ix2 ⟨4096 * t.val + r.val, by have := lt64 t; omega⟩ q) := by
  unfold fblk iblk
  rw [View.read_apply]
  show V m c main_arg0 _ = V m c main_arg0 _
  congr 1
  funext a
  apply Fin.ext
  match a with
  | ⟨0, _⟩ => show win0_0.index t 0 * 4096 + 1 * r.val = 4096 * t.val + r.val; rw [(idx_feat t).1]; omega
  | ⟨1, _⟩ => show win0_0.index t 1 * 512 + 1 * q.val = q.val; rw [(idx_feat t).2]; omega

/-- Entry r of point t's label block is label 4096 t + r. -/
theorem lblk_apply (c : Dev nD) (t : Fin cfg0.N) (r : Fin 4096) :
    lblk m c t (ix1 r) = labs m c (ix1 ⟨4096 * t.val + r.val, by have := lt64 t; omega⟩) := by
  unfold lblk iblk
  rw [View.read_apply]
  show V m c main_arg1 _ = V m c main_arg1 _
  congr 1
  funext a
  apply Fin.ext
  match a with
  | ⟨0, _⟩ => show win0_1.index t 0 * 4096 + 1 * r.val = 4096 * t.val + r.val; rw [idx_lab t]; omega

/-- The two halves of a block, read at a row. -/
theorem featLo_apply (x0 : Vec Ideal S4096x512 .f32) (k : Fin 2048) (q : Fin 512) :
    featLo x0 (ix2 k q) = x0 (ix2 ⟨k.val, by omega⟩ q) := by
  show x0 _ = x0 _
  congr 1; funext a; apply Fin.ext
  match a with
  | ⟨0, _⟩ => show 0 + 1 * k.val = k.val; omega
  | ⟨1, _⟩ => show 0 + 1 * q.val = q.val; omega
theorem featHi_apply (x0 : Vec Ideal S4096x512 .f32) (k : Fin 2048) (q : Fin 512) :
    featHi x0 (ix2 k q) = x0 (ix2 ⟨2048 + k.val, by omega⟩ q) := by
  show x0 _ = x0 _
  congr 1; funext a; apply Fin.ext
  match a with
  | ⟨0, _⟩ => show 2048 + 1 * k.val = 2048 + k.val; omega
  | ⟨1, _⟩ => show 0 + 1 * q.val = q.val; omega
theorem labLo_apply (x1 : Vec Ideal S4096 .i32) (k : Fin 2048) :
    labLo x1 (ix1 k) = x1 (ix1 ⟨k.val, by omega⟩) := by
  show x1 _ = x1 _
  congr 1; funext a; apply Fin.ext
  match a with
  | ⟨0, _⟩ => show 0 + 1 * k.val = k.val; omega
theorem labHi_apply (x1 : Vec Ideal S4096 .i32) (k : Fin 2048) :
    labHi x1 (ix1 k) = x1 (ix1 ⟨2048 + k.val, by omega⟩) := by
  show x1 _ = x1 _
  congr 1; funext a; apply Fin.ext
  match a with
  | ⟨0, _⟩ => show 2048 + 1 * k.val = 2048 + k.val; omega

/-- A row of a fetched block as a row of the whole arrays: weight times entry, and the weight. -/
theorem term_of_blk (c : Dev nD) (t : Fin cfg0.N) (p : ℕ) (q : Fin 512) (r : Fin 4096) :
    hit (lblk m c t (ix1 r)) p * fblk m c t (ix2 r q) = rowTerm (feats m c) (labs m c) p q (4096 * t.val + r.val) := by
  have h : 4096 * t.val + r.val < 262144 := by have := lt64 t; omega
  rw [fblk_apply, lblk_apply]
  unfold rowTerm
  rw [dif_pos h]
theorem hit_of_blk (c : Dev nD) (t : Fin cfg0.N) (p : ℕ) (r : Fin 4096) :
    hit (lblk m c t (ix1 r)) p = rowHit (labs m c) p (4096 * t.val + r.val) := by
  have h : 4096 * t.val + r.val < 262144 := by have := lt64 t; omega
  rw [lblk_apply]
  unfold rowHit
  rw [dif_pos h]

/-- The first half's payloads are the second half's at the class column and the first half's label row. -/
theorem firstHalf_sums (v4 : Vec Ideal S2048x512 .f32) (v5 : Vec Ideal S2048 .i32) (v14 : Vec Ideal S1x1024x512 .f32) :
    k0_pay7 (F := Ideal) v4 v5 v14 = k0_pay2 (F := Ideal) classIds v4 (k0_pay9 (F := Ideal) v5) v14 := rfl
theorem firstHalf_cnt (v5 : Vec Ideal S2048 .i32) (v21 : Vec Ideal S1x1024x1 .f32) :
    k0_pay8 (F := Ideal) v5 v21 = k0_pay3 (F := Ideal) classIds (k0_pay9 (F := Ideal) v5) v21 := rfl

/-- One point's work on the sums, at an entry: the block it started from plus the point's 4096 rows. -/
theorem sumsStep_apply (c : Dev nD) (t : Fin cfg0.N) (s : Vec Ideal S1x1024x512 .f32) (u : Fin 1) (p : Fin 1024) (q : Fin 512) :
    sumsStep (fblk m c t) (lblk m c t) s (ix3 u p q)
      = s (ix3 (0 : Fin 1) p q) + ∑ n ∈ Finset.Ico (4096 * t.val) (4096 * t.val + 4096), rowTerm (feats m c) (labs m c) p.val q n := by
  unfold sumsStep
  rw [halfSums_apply, firstHalf_sums, halfSums_apply, add_assoc, ← sum_two_halves]
  refine congrArg₂ (· + ·) rfl (congrArg₂ (· + ·) ?_ ?_)
  · refine Finset.sum_congr rfl fun k _ => ?_
    rw [labLo_apply, featLo_apply]
    exact term_of_blk m c t p.val q ⟨k.val, by omega⟩
  · refine Finset.sum_congr rfl fun k _ => ?_
    rw [labHi_apply, featHi_apply]
    exact (term_of_blk m c t p.val q ⟨2048 + k.val, by omega⟩).trans (by rw [Nat.add_assoc])

/-- One point's work on the counts, at an entry. -/
theorem cntStep_apply (c : Dev nD) (t : Fin cfg0.N) (n : Vec Ideal S1x1024x1 .f32) (u : Fin 1) (p : Fin 1024) (z : Fin 1) :
    cntStep (lblk m c t) n (ix3 u p z)
      = n (ix3 (0 : Fin 1) p z) + ∑ k ∈ Finset.Ico (4096 * t.val) (4096 * t.val + 4096), rowHit (labs m c) p.val k := by
  unfold cntStep
  rw [halfCnt_apply, firstHalf_cnt, halfCnt_apply, add_assoc, ← sum_two_halves]
  refine congrArg₂ (· + ·) rfl (congrArg₂ (· + ·) ?_ ?_)
  · refine Finset.sum_congr rfl fun k _ => ?_
    rw [labLo_apply]
    exact hit_of_blk m c t p.val ⟨k.val, by omega⟩
  · refine Finset.sum_congr rfl fun k _ => ?_
    rw [labHi_apply]
    exact (hit_of_blk m c t p.val ⟨2048 + k.val, by omega⟩).trans (by rw [Nat.add_assoc])

/-- The blocks a pass starts from are zero. -/
theorem zeroSums_apply (y : S1x1024x512.Idx) : k0_pay4 (F := Ideal) y = 0 := by
  obtain ⟨u, p, q, rfl⟩ : ∃ (u : Fin 1) (p : Fin 1024) (q : Fin 512), y = ix3 u p q := ⟨y 0, y 1, y 2, eq_ix3 y⟩
  unfold k0_pay4
  refine (shapeCast_ab_1ab_apply _ _ u p q).trans ?_
  exact Ideal.ofBits_zero_f32
theorem zeroCnt_apply (y : S1x1024x1.Idx) : k0_pay5 (F := Ideal) y = 0 := by
  obtain ⟨u, p, z, rfl⟩ : ∃ (u : Fin 1) (p : Fin 1024) (z : Fin 1), y = ix3 u p z := ⟨y 0, y 1, y 2, eq_ix3 y⟩
  unfold k0_pay5
  refine (shapeCast_ab_1ab_apply _ _ u p z).trans ?_
  exact Ideal.ofBits_zero_f32

/-- The sums after point n: the rows from the start of n's pass to the end of n's rows. -/
theorem sums_after (c : Dev nD) : ∀ (n : ℕ) (h : n < cfg0.N) (u : Fin 1) (p : Fin 1024) (q : Fin 512),
    (outsAt0 m c n h).1 (ix3 u p q)
      = ∑ k ∈ Finset.Ico (131072 * (n / 32)) (4096 * (n + 1)), rowTerm (feats m c) (labs m c) p.val q k
  | 0, h, u, p, q => by
    rw [outsAt0_A m c ⟨0, h⟩ rfl]
    dsimp only
    rw [out_A_2]
    refine (sumsStep_apply m c ⟨0, h⟩ (k0_pay4 (F := Ideal)) u p q).trans ?_
    rw [zeroSums_apply, zero_add]
    rfl
  | n + 1, h, u, p, q => by
    have hN : n + 1 < 64 := lt64 ⟨n + 1, h⟩
    by_cases h0 : (n + 1) % 32 = 0
    · rw [outsAt0_A m c ⟨n + 1, h⟩ h0]
      dsimp only
      rw [out_A_2]
      refine (sumsStep_apply m c ⟨n + 1, h⟩ (k0_pay4 (F := Ideal)) u p q).trans ?_
      dsimp only
      rw [zeroSums_apply, zero_add]
      have e1 : 131072 * ((n + 1) / 32) = 4096 * (n + 1) := by omega
      have e2 : 4096 * (n + 1 + 1) = 4096 * (n + 1) + 4096 := by omega
      rw [e1, e2]
    · rw [outsAt0_B m c ⟨n + 1, h⟩ h0]
      dsimp only
      rw [out_B_2]
      refine (sumsStep_apply m c ⟨n + 1, h⟩ (outsAt0 m c n (Nat.lt_of_succ_lt h)).1 u p q).trans ?_
      dsimp only
      rw [sums_after c n (Nat.lt_of_succ_lt h) 0 p q]
      have e1 : 131072 * ((n + 1) / 32) = 131072 * (n / 32) := by omega
      have e2 : 4096 * (n + 1 + 1) = 4096 * (n + 1) + 4096 := by omega
      rw [e1, e2]
      exact sum_stretch_succ _ (by omega) (by omega)

/-- The counts after point n. -/
theorem cnt_after (c : Dev nD) : ∀ (n : ℕ) (h : n < cfg0.N) (u : Fin 1) (p : Fin 1024) (z : Fin 1),
    (outsAt0 m c n h).2 (ix3 u p z)
      = ∑ k ∈ Finset.Ico (131072 * (n / 32)) (4096 * (n + 1)), rowHit (labs m c) p.val k
  | 0, h, u, p, z => by
    rw [outsAt0_A m c ⟨0, h⟩ rfl]
    dsimp only
    rw [out_A_3]
    refine (cntStep_apply m c ⟨0, h⟩ (k0_pay5 (F := Ideal)) u p z).trans ?_
    rw [zeroCnt_apply, zero_add]
    rfl
  | n + 1, h, u, p, z => by
    have hN : n + 1 < 64 := lt64 ⟨n + 1, h⟩
    by_cases h0 : (n + 1) % 32 = 0
    · rw [outsAt0_A m c ⟨n + 1, h⟩ h0]
      dsimp only
      rw [out_A_3]
      refine (cntStep_apply m c ⟨n + 1, h⟩ (k0_pay5 (F := Ideal)) u p z).trans ?_
      dsimp only
      rw [zeroCnt_apply, zero_add]
      have e1 : 131072 * ((n + 1) / 32) = 4096 * (n + 1) := by omega
      have e2 : 4096 * (n + 1 + 1) = 4096 * (n + 1) + 4096 := by omega
      rw [e1, e2]
    · rw [outsAt0_B m c ⟨n + 1, h⟩ h0]
      dsimp only
      rw [out_B_3]
      refine (cntStep_apply m c ⟨n + 1, h⟩ (outsAt0 m c n (Nat.lt_of_succ_lt h)).2 u p z).trans ?_
      dsimp only
      rw [cnt_after c n (Nat.lt_of_succ_lt h) 0 p z]
      have e1 : 131072 * ((n + 1) / 32) = 131072 * (n / 32) := by omega
      have e2 : 4096 * (n + 1 + 1) = 4096 * (n + 1) + 4096 := by omega
      rw [e1, e2]
      exact sum_stretch_succ _ (by omega) (by omega)

end Cert.KernelIdeal.Accum

end
-- ==== Proof.Final.lean ====
/-
  The two result arrays of the region.

  The block of sums and the block of counts are written back at the last point of each pass (points 31 and 63),
  into block 0 and block 1 of the [2, 1024, 512] and [2, 1024, 1] result arrays. By then a pass has taken in all
  of its 131072 rows, so the arrays end holding, at (g, p, q) and (g, p, 0), class p's sum in column q and
  class p's number of rows over the rows of half g.
-/
import proofs.«426212_j24893630447945_3_alg».proof.Proof.Accum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum Cert.SegMean

variable (m : (ℓ : Loc nD τ sig) → Buf (Elt Ideal) ℓ) (ρ : Dev nD → PrngReg)

/-- Half g's sums: class p, column q, over rows 131072 g … 131072 g + 131071. -/
def halfSums (c : Dev nD) : S2x1024x512.Idx → EReal := fun i =>
  ∑ k ∈ Finset.Ico (131072 * (i 0).val) (131072 * (i 0).val + 131072),
    rowTerm (feats m c) (labs m c) (i 1).val ⟨(i 2).val, (i 2).isLt⟩ k

/-- Half g's counts. -/
def halfCnts (c : Dev nD) : S2x1024x1.Idx → EReal := fun i =>
  ∑ k ∈ Finset.Ico (131072 * (i 0).val) (131072 * (i 0).val + 131072), rowHit (labs m c) (i 1).val k

/-- The result windows' block index at point t is t's pass. -/
theorem idx_sums : ∀ t : Fin cfg0.N, win0_2.index t (0 : Fin 3) = t.val / 32 ∧ win0_2.index t (1 : Fin 3) = 0
    ∧ win0_2.index t (2 : Fin 3) = 0 :=
  (by decide +kernel : ∀ t : Fin grid0.N, win0_2.index t (0 : Fin 3) = t.val / 32 ∧ win0_2.index t (1 : Fin 3) = 0
    ∧ win0_2.index t (2 : Fin 3) = 0)
theorem idx_cnts : ∀ t : Fin cfg0.N, win0_3.index t (0 : Fin 3) = t.val / 32 ∧ win0_3.index t (1 : Fin 3) = 0
    ∧ win0_3.index t (2 : Fin 3) = 0 :=
  (by decide +kernel : ∀ t : Fin grid0.N, win0_3.index t (0 : Fin 3) = t.val / 32 ∧ win0_3.index t (1 : Fin 3) = 0
    ∧ win0_3.index t (2 : Fin 3) = 0)

/-- What a pass's last point writes back is that half's block of the sums. -/
theorem flushed_sums (c : Dev nD) (t : Fin cfg0.N) (hf : (cfg0.win 2).flush t = true) :
    (dats m 0 c).flushed 2 t = ((cfg0.win 2).blk t).view.read (Elt Ideal) (halfSums m c) := by
  have h31 : t.val % 32 = 31 := (flush0_2 t).mp hf
  have hN : t.val < 64 := lt64 t
  obtain ⟨e0, e1, e2⟩ := idx_sums t
  show (cfg0.win 2).cut (grid0.coords t) ((dats m 0 c).after 2 t) = _
  rw [after0_2]
  funext j
  have hj0 : (j 0).val < 1 := (j 0).isLt
  have hj1 : (j 1).val < 1024 := (j 1).isLt
  have hj2 : (j 2).val < 512 := (j 2).isLt
  rw [View.read_apply]
  have hx : (cfg0.win 2).xinj (grid0.coords t) j = ix3 (⟨(j 0).val, hj0⟩ : Fin 1) (⟨(j 1).val, hj1⟩ : Fin 1024) (⟨(j 2).val, hj2⟩ : Fin 512) := by
    funext a; apply Fin.ext
    match a with
    | ⟨0, _⟩ => rfl
    | ⟨1, _⟩ => rfl
    | ⟨2, _⟩ => rfl
  show (outsAt0 m c t.val t.isLt).1 ((cfg0.win 2).xinj (grid0.coords t) j)
    = halfSums m c (((cfg0.win 2).blk t).view.emb j)
  rw [hx, sums_after m c t.val t.isLt ⟨(j 0).val, hj0⟩ ⟨(j 1).val, hj1⟩ ⟨(j 2).val, hj2⟩]
  have hemb : ((cfg0.win 2).blk t).view.emb j = ix3 (⟨t.val / 32, by omega⟩ : Fin 2) (⟨(j 1).val, hj1⟩ : Fin 1024) (⟨(j 2).val, hj2⟩ : Fin 512) := by
    funext a; apply Fin.ext
    match a with
    | ⟨0, _⟩ => show win0_2.index t (0 : Fin 3) * 1 + 1 * (j 0).val = t.val / 32; omega
    | ⟨1, _⟩ => show win0_2.index t (1 : Fin 3) * 1024 + 1 * (j 1).val = (j 1).val; omega
    | ⟨2, _⟩ => show win0_2.index t (2 : Fin 3) * 512 + 1 * (j 2).val = (j 2).val; omega
  rw [hemb]
  show _ = ∑ k ∈ Finset.Ico (131072 * (t.val / 32)) (131072 * (t.val / 32) + 131072),
    rowTerm (feats m c) (labs m c) (j 1).val ⟨(j 2).val, hj2⟩ k
  rw [show 4096 * (t.val + 1) = 131072 * (t.val / 32) + 131072 by omega]

/-- What a pass's last point writes back is that half's block of the counts. -/
theorem flushed_cnts (c : Dev nD) (t : Fin cfg0.N) (hf : (cfg0.win 3).flush t = true) :
    (dats m 0 c).flushed 3 t = ((cfg0.win 3).blk t).view.read (Elt Ideal) (halfCnts m c) := by
  have h31 : t.val % 32 = 31 := (flush0_3 t).mp hf
  have hN : t.val < 64 := lt64 t
  obtain ⟨e0, e1, e2⟩ := idx_cnts t
  show (cfg0.win 3).cut (grid0.coords t) ((dats m 0 c).after 3 t) = _
  rw [after0_3]
  funext j
  have hj0 : (j 0).val < 1 := (j 0).isLt
  have hj1 : (j 1).val < 1024 := (j 1).isLt
  have hj2 : (j 2).val < 1 := (j 2).isLt
  rw [View.read_apply]
  have hx : (cfg0.win 3).xinj (grid0.coords t) j = ix3 (⟨(j 0).val, hj0⟩ : Fin 1) (⟨(j 1).val, hj1⟩ : Fin 1024) (⟨(j 2).val, hj2⟩ : Fin 1) := by
    funext a; apply Fin.ext
    match a with
    | ⟨0, _⟩ => rfl
    | ⟨1, _⟩ => rfl
    | ⟨2, _⟩ => rfl
  show (outsAt0 m c t.val t.isLt).2 ((cfg0.win 3).xinj (grid0.coords t) j)
    = halfCnts m c (((cfg0.win 3).blk t).view.emb j)
  rw [hx, cnt_after m c t.val t.isLt ⟨(j 0).val, hj0⟩ ⟨(j 1).val, hj1⟩ ⟨(j 2).val, hj2⟩]
  have hemb : ((cfg0.win 3).blk t).view.emb j = ix3 (⟨t.val / 32, by omega⟩ : Fin 2) (⟨(j 1).val, hj1⟩ : Fin 1024) (⟨(j 2).val, hj2⟩ : Fin 1) := by
    funext a; apply Fin.ext
    match a with
    | ⟨0, _⟩ => show win0_3.index t (0 : Fin 3) * 1 + 1 * (j 0).val = t.val / 32; omega
    | ⟨1, _⟩ => show win0_3.index t (1 : Fin 3) * 1024 + 1 * (j 1).val = (j 1).val; omega
    | ⟨2, _⟩ => show win0_3.index t (2 : Fin 3) * 1 + 1 * (j 2).val = (j 2).val; omega
  rw [hemb]
  show _ = ∑ k ∈ Finset.Ico (131072 * (t.val / 32)) (131072 * (t.val / 32) + 131072), rowHit (labs m c) (j 1).val k
  rw [show 4096 * (t.val + 1) = 131072 * (t.val / 32) + 131072 by omega]

/-- An index of the sums array is in point t's block iff each coordinate is in the block's range on its axis. -/
theorem mem_blk_sums (t : Fin cfg0.N) (i : S2x1024x512.Idx) :
    i ∈ ((cfg0.win 2).blk t).view.set ↔ ∀ a : Fin 3, win0_2.index t a * S1x1024x512.size a ≤ (i a).val ∧ (i a).val < win0_2.index t a * S1x1024x512.size a + S1x1024x512.size a := by
  show i ∈ ((View.whole main_v0_0).slice (win0_2.rect t)).set ↔ _
  rw [View.set_slice_whole, Rect.mem_set_unit]
  exact Iff.rfl
theorem mem_blk_cnts (t : Fin cfg0.N) (i : S2x1024x1.Idx) :
    i ∈ ((cfg0.win 3).blk t).view.set ↔ ∀ a : Fin 3, win0_3.index t a * S1x1024x1.size a ≤ (i a).val ∧ (i a).val < win0_3.index t a * S1x1024x1.size a + S1x1024x1.size a := by
  show i ∈ ((View.whole main_v0_1).slice (win0_3.rect t)).set ↔ _
  rw [View.set_slice_whole, Rect.mem_set_unit]
  exact Iff.rfl

/-- The last point of pass g. -/
def lastOf (g : ℕ) (hg : g < 2) : Fin cfg0.N := ⟨32 * g + 31, by rw [show cfg0.N = 64 from N_0]; omega⟩

/-- The sums array after the region: half g's block is written by the last point of pass g. -/
theorem final_sums (c : Dev nD) : (dats m 0 c).arrAt 2 cfg0.N = halfSums m c :=
  (dats m 0 c).arrAt_eq_of_cover 2 (halfSums m c) (flushed_sums m c) fun i => by
    have hi0 : (i 0).val < 2 := (i 0).isLt
    have hi1 : (i 1).val < 1024 := (i 1).isLt
    have hi2 : (i 2).val < 512 := (i 2).isLt
    refine ⟨lastOf (i 0).val hi0, (flush0_2 _).mpr (by show (32 * (i 0).val + 31) % 32 = 31; omega), ?_⟩
    rw [mem_blk_sums]
    obtain ⟨e0, e1, e2⟩ := idx_sums (lastOf (i 0).val hi0)
    have ev : (lastOf (i 0).val hi0).val / 32 = (i 0).val := by show (32 * (i 0).val + 31) / 32 = (i 0).val; omega
    intro a
    match a with
    | ⟨0, _⟩ => show win0_2.index (lastOf (i 0).val hi0) (0 : Fin 3) * 1 ≤ (i 0).val ∧ (i 0).val < win0_2.index (lastOf (i 0).val hi0) (0 : Fin 3) * 1 + 1; omega
    | ⟨1, _⟩ => show win0_2.index (lastOf (i 0).val hi0) (1 : Fin 3) * 1024 ≤ (i 1).val ∧ (i 1).val < win0_2.index (lastOf (i 0).val hi0) (1 : Fin 3) * 1024 + 1024; omega
    | ⟨2, _⟩ => show win0_2.index (lastOf (i 0).val hi0) (2 : Fin 3) * 512 ≤ (i 2).val ∧ (i 2).val < win0_2.index (lastOf (i 0).val hi0) (2 : Fin 3) * 512 + 512; omega

/-- The counts array after the region. -/
theorem final_cnts (c : Dev nD) : (dats m 0 c).arrAt 3 cfg0.N = halfCnts m c :=
  (dats m 0 c).arrAt_eq_of_cover 3 (halfCnts m c) (flushed_cnts m c) fun i => by
    have hi0 : (i 0).val < 2 := (i 0).isLt
    have hi1 : (i 1).val < 1024 := (i 1).isLt
    have hi2 : (i 2).val < 1 := (i 2).isLt
    refine ⟨lastOf (i 0).val hi0, (flush0_3 _).mpr (by show (32 * (i 0).val + 31) % 32 = 31; omega), ?_⟩
    rw [mem_blk_cnts]
    obtain ⟨e0, e1, e2⟩ := idx_cnts (lastOf (i 0).val hi0)
    have ev : (lastOf (i 0).val hi0).val / 32 = (i 0).val := by show (32 * (i 0).val + 31) / 32 = (i 0).val; omega
    intro a
    match a with
    | ⟨0, _⟩ => show win0_3.index (lastOf (i 0).val hi0) (0 : Fin 3) * 1 ≤ (i 0).val ∧ (i 0).val < win0_3.index (lastOf (i 0).val hi0) (0 : Fin 3) * 1 + 1; omega
    | ⟨1, _⟩ => show win0_3.index (lastOf (i 0).val hi0) (1 : Fin 3) * 1024 ≤ (i 1).val ∧ (i 1).val < win0_3.index (lastOf (i 0).val hi0) (1 : Fin 3) * 1024 + 1024; omega
    | ⟨2, _⟩ => show win0_3.index (lastOf (i 0).val hi0) (2 : Fin 3) * 1 ≤ (i 2).val ∧ (i 2).val < win0_3.index (lastOf (i 0).val hi0) (2 : Fin 3) * 1 + 1; omega

end Cert.KernelIdeal.Final

end
-- ==== Proof.Tail.lean ====
/-
  The host operations after the region, and the kernel's result.

  The region leaves the two halves' sums in a [2, 1024, 512] array and the two halves' counts in a [2, 1024, 1]
  array. The host adds the two halves of each, keeps the first 1000 classes, replaces a count below the float
  word of one by it, and divides each class's sum by its count. Half 0 is rows 0 … 131071 and half 1 the rest,
  so the added halves are the sums and counts over all rows: the result is the per-class mean.
-/
import proofs.«426212_j24893630447945_3_alg».proof.Proof.Final
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Accum Cert.KernelIdeal.Final Cert.SegMean

/-- Half g of a [2, 1024, 512] array as a [1024, 512] array, at (p, q). -/
theorem halfOfSums_apply (S : S2x1024x512.Idx → EReal) (g : Fin 2) (off : Fin 3 → ℕ) (hoff : off = ![g.val, 0, 0])
    (h : S2x1024x512.Slices off S1x1024x512) (p : Fin 1024) (q : Fin 512) :
    shapeCast S1024x512 (extractStridedSlice S1x1024x512 off S h) shapeCasts_S1x1024x512_S1024x512 (ix2 p q)
      = S (ix3 g p q) := by
  subst hoff
  refine (shapeCast_1ab_ab_apply _ _ p q).trans ?_
  refine extractStridedSlice_apply _ S h _ (ix3 g p q) fun a => ?_
  match a with
  | ⟨0, _⟩ => exact (Nat.add_zero _).symm
  | ⟨1, _⟩ => exact (Nat.zero_add _).symm
  | ⟨2, _⟩ => exact (Nat.zero_add _).symm

/-- Half g of a [2, 1024, 1] array as a [1024] vector, at p. -/
theorem halfOfCnts_apply (Cn : S2x1024x1.Idx → EReal) (g : Fin 2) (off : Fin 3 → ℕ) (hoff : off = ![g.val, 0, 0])
    (h : S2x1024x1.Slices off S1x1024x1) (p : Fin 1024) :
    shapeCast S1024 (extractStridedSlice S1x1024x1 off Cn h) shapeCasts_S1x1024x1_S1024 (ix1 p)
      = Cn (ix3 g p (0 : Fin 1)) := by
  subst hoff
  refine (shapeCast_apply _ _ (ix1 p) (ix3 (0 : Fin 1) p (0 : Fin 1)) ?_).trans ?_
  · rw [Shape.rowMajor_val_three, Shape.rowMajor_val_one]
    show (0 * 1024 + p.val) * 1 + 0 = p.val
    omega
  · refine extractStridedSlice_apply _ Cn h _ (ix3 g p (0 : Fin 1)) fun a => ?_
    match a with
    | ⟨0, _⟩ => exact (Nat.add_zero _).symm
    | ⟨1, _⟩ => exact (Nat.zero_add _).symm
    | ⟨2, _⟩ => exact (Nat.zero_add _).symm

/-- The host operations after the region, as one function of the two arrays the region leaves. -/
def tail (S : S2x1024x512.Idx → EReal) (Cn : S2x1024x1.Idx → EReal) : S1000x512.Idx → EReal :=
  Host.divf (F := Ideal)
    (extractStridedSlice S1000x512 ![0, 0]
      (addf (F := Ideal)
        (shapeCast S1024x512 (extractStridedSlice S1x1024x512 ![0, 0, 0] S slices_S2x1024x512_S1x1024x512_0_0_0) shapeCasts_S1x1024x512_S1024x512)
        (shapeCast S1024x512 (extractStridedSlice S1x1024x512 ![1, 0, 0] S slices_S2x1024x512_S1x1024x512_1_0_0) shapeCasts_S1x1024x512_S1024x512))
      slices_S1024x512_S1000x512_0_0)
    (broadcastInDim S1000x512 ![0, 1] bcast_S1000x1_S1000x512_0_1
      (broadcastInDim S1000x1 ![0] bcast_S1000_S1000x1_0
        (maximumf (F := Ideal)
          (extractStridedSlice S1000 ![0]
            (addf (F := Ideal)
              (shapeCast S1024 (extractStridedSlice S1x1024x1 ![0, 0, 0] Cn slices_S2x1024x1_S1x1024x1_0_0_0) shapeCasts_S1x1024x1_S1024)
              (shapeCast S1024 (extractStridedSlice S1x1024x1 ![1, 0, 0] Cn slices_S2x1024x1_S1x1024x1_1_0_0) shapeCasts_S1x1024x1_S1024))
            slices_S1024_S1000_0)
          (broadcastInDim S1000 ![] bcast_S_S1000 (constant (F := Ideal) S_ .f32 0x3F800000#32)))))

/-- The tail at an entry: the two halves' sums added, over the two halves' counts added, a count below the float
    word of one replaced by it. -/
theorem tail_apply (S : S2x1024x512.Idx → EReal) (Cn : S2x1024x1.Idx → EReal) (p : Fin 1000) (q : Fin 512) :
    tail S Cn (ix2 p q)
      = Ideal.div (S (ix3 (0 : Fin 2) (⟨p.val, by omega⟩ : Fin 1024) q) + S (ix3 (1 : Fin 2) (⟨p.val, by omega⟩ : Fin 1024) q))
          (max (Cn (ix3 (0 : Fin 2) (⟨p.val, by omega⟩ : Fin 1024) (0 : Fin 1)) + Cn (ix3 (1 : Fin 2) (⟨p.val, by omega⟩ : Fin 1024) (0 : Fin 1)))
            (Ideal.ofBits .f32 0x3F800000#32)) := by
  unfold tail
  show Ideal.div _ _ = _
  refine congrArg₂ Ideal.div ?_ ?_
  · refine (slice2_axis0_apply 0 _ _ p q (⟨p.val, by omega⟩ : Fin 1024) (Nat.zero_add _).symm).trans ?_
    rw [addf_apply]
    exact congrArg₂ (· + ·) (halfOfSums_apply S 0 _ rfl _ _ q) (halfOfSums_apply S 1 _ rfl _ _ q)
  · refine (broadcastInDim_apply _ bcast_S1000x1_S1000x512_0_1 _ (ix2 p q) (ix2 p (0 : Fin 1)) fun a => ?_).trans ?_
    · match a with
      | ⟨0, _⟩ => show p.val = if (1000 : ℕ) = 1 then 0 else p.val; rw [if_neg (by decide)]
      | ⟨1, _⟩ => show 0 = if (1 : ℕ) = 1 then 0 else q.val; rw [if_pos rfl]
    refine (broadcastInDim_apply _ bcast_S1000_S1000x1_0 _ (ix2 p (0 : Fin 1)) (ix1 p) fun a => ?_).trans ?_
    · match a with
      | ⟨0, _⟩ => show p.val = if (1000 : ℕ) = 1 then 0 else p.val; rw [if_neg (by decide)]
    rw [maximumf_apply]
    refine congrArg₂ max ?_ ?_
    · refine (extractStridedSlice_apply _ _ slices_S1024_S1000_0 (ix1 p) (ix1 (⟨p.val, by omega⟩ : Fin 1024)) fun a => ?_).trans ?_
      · match a with
        | ⟨0, _⟩ => exact (Nat.zero_add _).symm
      rw [addf_apply]
      exact congrArg₂ (· + ·) (halfOfCnts_apply Cn 0 _ rfl _ _) (halfOfCnts_apply Cn 1 _ rfl _ _)
    · exact broadcastInDim_apply _ bcast_S_S1000 _ (ix1 p) ix0 fun a => a.elim0

variable (m : (ℓ : Loc nD τ sig) → Buf (Elt Ideal) ℓ) (ρ : Dev nD → PrngReg)

/-- The two halves of the rows are all the rows. -/
theorem halves_sum (f : ℕ → EReal) :
    (∑ k ∈ Finset.Ico (131072 * 0) (131072 * 0 + 131072), f k) + ∑ k ∈ Finset.Ico (131072 * 1) (131072 * 1 + 131072), f k
      = ∑ k ∈ Finset.range 262144, f k := by
  rw [Finset.range_eq_Ico]
  exact sum_stretch_succ f (by omega) (by omega)

/-- The tail of the two arrays the region leaves is the per-class mean of the features by the labels. -/
theorem tail_eq_mean (c : Dev nD) : tail (halfSums m c) (halfCnts m c) = mean (feats m c) (labs m c) := by
  funext i
  obtain ⟨p, q, rfl⟩ : ∃ (p : Fin 1000) (q : Fin 512), i = ix2 p q := ⟨i 0, i 1, eq_ix2 i⟩
  rw [tail_apply]
  unfold mean
  refine congrArg₂ Ideal.div ?_ (congrArg₂ max ?_ rfl)
  · exact halves_sum (rowTerm (feats m c) (labs m c) p.val q)
  · exact halves_sum (rowHit (labs m c) p.val)

/-- What @main's result buffer holds after the run. -/
theorem result_eq (c : Dev nD) :
    Pipeline.afterTail₀ cfgs (dats m) 0 (V0 m) [hostOps1] c main_v17 = mean (feats m c) (labs m c) := by
  have hS : Pipeline.withArrays (cfgs 0).spec c (V0 m c) (fun w => (dats m 0 c).arrAt w (cfgs 0).N) (Proc.devRef .tc main_v0_0)
      = halfSums m c := (Pipeline.withArrays_arr spec0 launch0.win.arr_inj c _ _ 2).trans (final_sums m c)
  have hC : Pipeline.withArrays (cfgs 0).spec c (V0 m c) (fun w => (dats m 0 c).arrAt w (cfgs 0).N) (Proc.devRef .tc main_v0_1)
      = halfCnts m c := (Pipeline.withArrays_arr spec0 launch0.win.arr_inj c _ _ 3).trans (final_cnts m c)
  unfold Pipeline.afterTail₀
  show StableHlo.after hostOps1 _ (Proc.devRef .tc main_v17) = _
  after_results
  rw [hS, hC]
  exact tail_eq_mean m c

/-- The run, read: the result buffer at the per-class mean of the arguments, the arguments unchanged. -/
theorem run : θ_run defs (onTc (τ := τ) (main (F := Ideal))) ⟨m, fun _ => 0, ρ⟩ fun r => ∀ c : Dev nD,
      r.2.mem ((c.tc : Thread nD τ).loc main_v17) = mean (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v17 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.LibScatterRows.lean ====
/-
  ROW SCATTER-ADD READ AT AN ENTRY.

  A segment sum over the leading axis is the accumulating scatter whose dimension numbers are
  update window axes [1] (or none, for a vector), inserted window axes [0], scatter-dims-to-operand-dims
  [0] and index vector axis 1, over an operand [C, A] (or [C]), scatter indices [N, 1] and updates [N, A]
  (or [N]). Update row n carries ONE start index, the word idx[n, 0] read as a signed integer; it is the
  start on operand axis 0, where the window coordinate is 0 because that axis is inserted. On operand axis 1
  the start is 0 (the map does not name the axis) and the window coordinate is the update's own column. So
  update element (n, a') lands at operand element (idx[n, 0], a') when 0 ≤ idx[n, 0] < C and is dropped
  otherwise; the column is always in range, being below A on both sides.

  Hence the result at (c, a) is the operand there plus the sum, over the rows n whose index word reads
  exactly c, of upd[n, a]:

      scatter(x, idx, upd)[c, a] = x[c, a] + ∑ n, if idx[n, 0] = c then upd[n, a] else 0 .

  An index word that is negative or at least C matches no c below C, so the dropped updates need no
  separate clause. The statements hold at every extent C, N, A and every index width w, for any record of
  dimension numbers whose four lists are the ones above. The rank-1 form (operand [C], updates [N]) is the
  same with the column removed.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-! ## Operand [C, A], scatter indices [N, 1], updates [N, A] -/

section Rows2
variable {C N A w : ℕ}

/-- The row scatter's dimension numbers as a record of literal lists: update window axes [1], inserted
    window axes [0], scatter-dims-to-operand-dims [0], index vector axis 1. -/
abbrev rows2 (wf : ScatterDims.WF ⟨2, ![C, A]⟩ ⟨2, ![N, 1]⟩ ⟨2, ![N, A]⟩ [1] [0] [0] 1) :
    ScatterDims ⟨2, ![C, A]⟩ ⟨2, ![N, 1]⟩ ⟨2, ![N, A]⟩ := ⟨[1], [0], [0], 1, wf⟩

/-- On operand axis 0 the window of update (n, a') starts at the index word idx[n, 0], read signed. -/
theorem rows2_start0 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On operand axis 1, which the map does not name, the window starts at 0. -/
theorem rows2_start1 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 1 = 0 := by
  unfold ScatterDims.start
  rw [dif_neg (show ¬ ((1 : Fin 2) ∈ ([0] : List (Fin 2))) by decide)]

/-- Operand axis 0 is inserted: the window coordinate there is 0. -/
theorem rows2_window0 (wf : ScatterDims.WF ⟨2, ![C, A]⟩ ⟨2, ![N, 1]⟩ ⟨2, ![N, A]⟩ [1] [0] [0] 1)
    (j : (⟨2, ![N, A]⟩ : Shape).Idx) :
    (rows2 wf).window j 0 = 0 := by
  unfold ScatterDims.window
  have h : ¬ ((0 : Fin 2) ∈ (rows2 wf).sKept) := by
    show ¬ ((0 : Fin 2) ∈ ([1] : List (Fin 2)))
    decide
  rw [dif_neg h]

/-- Operand axis 1 is the one kept axis: the window coordinate there is the update's column. -/
theorem rows2_window1 (wf : ScatterDims.WF ⟨2, ![C, A]⟩ ⟨2, ![N, 1]⟩ ⟨2, ![N, A]⟩ [1] [0] [0] 1)
    (j : (⟨2, ![N, A]⟩ : Shape).Idx) :
    (rows2 wf).window j 1 = (j 1).val := by
  unfold ScatterDims.window
  have h : (1 : Fin 2) ∈ (rows2 wf).sKept := by
    show (1 : Fin 2) ∈ ([1] : List (Fin 2))
    decide
  rw [dif_pos h]
  rfl

/-- WHERE AN UPDATE LANDS: update (n, a') lands at operand element (c, a) exactly when its row's index word
    reads c and its column is a. (An index word outside [0, C) lands nowhere, and equals no c below C.) -/
theorem rows2_resultIdx?_eq_some (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) (c : Fin C) (a : Fin A) :
    (rows2 wf).resultIdx? j idx = some (ix2 c a) ↔
      (idx (ix2 (j 0) (0 : Fin 1))).toInt = (c.val : ℤ) ∧ j 1 = a := by
  have e0 : (rows2 wf).start j idx 0 + ((rows2 wf).window j 0 : ℕ) = (idx (ix2 (j 0) (0 : Fin 1))).toInt := by
    rw [rows2_start0, rows2_window0]; simp
  have e1 : (rows2 wf).start j idx 1 + ((rows2 wf).window j 1 : ℕ) = ((j 1).val : ℤ) := by
    rw [rows2_start1, rows2_window1]; simp
  unfold ScatterDims.resultIdx?
  split_ifs with h
  · rw [Option.some.injEq]
    constructor
    · intro hf
      have h0 : ((rows2 wf).start j idx 0 + ((rows2 wf).window j 0 : ℕ)).toNat = c.val :=
        congrArg Fin.val (congrFun hf 0)
      have h1 : ((rows2 wf).start j idx 1 + ((rows2 wf).window j 1 : ℕ)).toNat = a.val :=
        congrArg Fin.val (congrFun hf 1)
      have hp := (h 0).1
      rw [e0] at h0 hp
      rw [e1] at h1
      refine ⟨by omega, Fin.ext (by omega)⟩
    · rintro ⟨hc, ha⟩
      funext b
      refine Fin.ext ?_
      match b with
      | ⟨0, _⟩ =>
        show ((rows2 wf).start j idx 0 + ((rows2 wf).window j 0 : ℕ)).toNat = c.val
        rw [e0, hc]; simp
      | ⟨1, _⟩ =>
        show ((rows2 wf).start j idx 1 + ((rows2 wf).window j 1 : ℕ)).toNat = a.val
        rw [e1, ha]; simp
  · constructor
    · intro hf; cases hf
    · rintro ⟨hc, ha⟩
      refine absurd ?_ h
      intro b
      match b with
      | ⟨0, _⟩ =>
        show 0 ≤ (rows2 wf).start j idx 0 + ((rows2 wf).window j 0 : ℕ) ∧
          (rows2 wf).start j idx 0 + ((rows2 wf).window j 0 : ℕ) < ((C : ℕ) : ℤ)
        rw [e0, hc]
        have := c.isLt
        omega
      | ⟨1, _⟩ =>
        show 0 ≤ (rows2 wf).start j idx 1 + ((rows2 wf).window j 1 : ℕ) ∧
          (rows2 wf).start j idx 1 + ((rows2 wf).window j 1 : ℕ) < ((A : ℕ) : ℤ)
        rw [e1, ha]
        have := a.isLt
        omega

/-- The same, for an update index given by its coordinates. -/
theorem rows2_resultIdx?_ix2 (wf : ScatterDims.WF ⟨2, ![C, A]⟩ ⟨2, ![N, 1]⟩ ⟨2, ![N, A]⟩ [1] [0] [0] 1)
    (n : Fin N) (b : Fin A) (idx : IVec ⟨2, ![N, 1]⟩ w) (c : Fin C) (a : Fin A) :
    (rows2 wf).resultIdx? (ix2 n b) idx = some (ix2 c a) ↔
      (idx (ix2 n (0 : Fin 1))).toInt = (c.val : ℤ) ∧ b = a :=
  rows2_resultIdx?_eq_some wf (ix2 n b) idx c a

/-- The row scatter-add of the literal record, read at (c, a). -/
theorem rows2_apply (wf : ScatterDims.WF ⟨2, ![C, A]⟩ ⟨2, ![N, 1]⟩ ⟨2, ![N, A]⟩ [1] [0] [0] 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd (rows2 wf) x idx upd (ix2 c a) =
      x (ix2 c a) + ∑ n : Fin N, if (idx (ix2 n (0 : Fin 1))).toInt = (c.val : ℤ) then upd (ix2 n a) else 0 := by
  unfold Ideal.hostScatterAdd
  congr 1
  rw [Finset.sum_filter, sum_idx2]
  refine Finset.sum_congr rfl fun n _ => ?_
  simp only [rows2_resultIdx?_ix2]
  by_cases hc : (idx (ix2 n (0 : Fin 1))).toInt = (c.val : ℤ)
  · simp [hc]
  · simp [hc]

end Rows2

/-- ROW SCATTER-ADD AT AN ENTRY, operand [C, A]: for any dimension-number record with update window axes
    [1], inserted window axes [0], scatter-dims-to-operand-dims [0] and index vector axis 1, the result at
    (c, a) is the operand there plus the sum of upd[n, a] over the rows n whose index word idx[n, 0], read
    signed, is c. Rows whose index word is negative or at least C contribute nothing. -/
theorem scatterRows2_apply {C N A w : ℕ} (d : ScatterDims ⟨2, ![C, A]⟩ ⟨2, ![N, 1]⟩ ⟨2, ![N, A]⟩)
    (hu : d.updateWindowDims = [1]) (hi : d.insertedWindowDims = [0]) (hs : d.scatterDimsToOperandDims = [0])
    (hv : d.indexVectorDim = 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd d x idx upd (ix2 c a) =
      x (ix2 c a) + ∑ n : Fin N, if (idx (ix2 n (0 : Fin 1))).toInt = (c.val : ℤ) then upd (ix2 n a) else 0 := by
  obtain ⟨uw, iw, sd, iv, wf⟩ := d
  dsimp only at hu hi hs hv
  subst hu hi hs hv
  exact rows2_apply wf x idx upd c a

/-! ## Operand [C], scatter indices [N, 1], updates [N] -/

section Rows1
variable {C N w : ℕ}

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The vector scatter's dimension numbers as a record of literal lists: no update window axes, inserted
    window axes [0], scatter-dims-to-operand-dims [0], index vector axis 1. -/
abbrev rows1 (wf : ScatterDims.WF ⟨1, ![C]⟩ ⟨2, ![N, 1]⟩ ⟨1, ![N]⟩ [] [0] [0] 1) :
    ScatterDims ⟨1, ![C]⟩ ⟨2, ![N, 1]⟩ ⟨1, ![N]⟩ := ⟨[], [0], [0], 1, wf⟩

/-- On the operand's one axis the window of update n starts at the index word idx[n, 0], read signed. -/
theorem rows1_start0 (wf : ScatterDims.WF ⟨1, ![C]⟩ ⟨2, ![N, 1]⟩ ⟨1, ![N]⟩ [] [0] [0] 1)
    (j : (⟨1, ![N]⟩ : Shape).Idx) (idx : IVec ⟨2, ![N, 1]⟩ w) :
    (rows1 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's one axis is inserted: the window coordinate there is 0. -/
theorem rows1_window0 (wf : ScatterDims.WF ⟨1, ![C]⟩ ⟨2, ![N, 1]⟩ ⟨1, ![N]⟩ [] [0] [0] 1)
    (j : (⟨1, ![N]⟩ : Shape).Idx) :
    (rows1 wf).window j 0 = 0 := by
  unfold ScatterDims.window
  have h : ¬ ((0 : Fin 1) ∈ (rows1 wf).sKept) := by
    show ¬ ((0 : Fin 1) ∈ ([] : List (Fin 1)))
    decide
  rw [dif_neg h]

/-- WHERE AN UPDATE LANDS: update n lands at operand element c exactly when its index word reads c. -/
theorem rows1_resultIdx?_eq_some (wf : ScatterDims.WF ⟨1, ![C]⟩ ⟨2, ![N, 1]⟩ ⟨1, ![N]⟩ [] [0] [0] 1)
    (j : (⟨1, ![N]⟩ : Shape).Idx) (idx : IVec ⟨2, ![N, 1]⟩ w) (c : Fin C) :
    (rows1 wf).resultIdx? j idx = some (ix1 c) ↔ (idx (ix2 (j 0) (0 : Fin 1))).toInt = (c.val : ℤ) := by
  have e0 : (rows1 wf).start j idx 0 + ((rows1 wf).window j 0 : ℕ) = (idx (ix2 (j 0) (0 : Fin 1))).toInt := by
    rw [rows1_start0, rows1_window0]; simp
  unfold ScatterDims.resultIdx?
  split_ifs with h
  · rw [Option.some.injEq]
    constructor
    · intro hf
      have h0 : ((rows1 wf).start j idx 0 + ((rows1 wf).window j 0 : ℕ)).toNat = c.val :=
        congrArg Fin.val (congrFun hf 0)
      have hp := (h 0).1
      rw [e0] at h0 hp
      omega
    · intro hc
      funext b
      refine Fin.ext ?_
      match b with
      | ⟨0, _⟩ =>
        show ((rows1 wf).start j idx 0 + ((rows1 wf).window j 0 : ℕ)).toNat = c.val
        rw [e0, hc]; simp
  · constructor
    · intro hf; cases hf
    · intro hc
      refine absurd ?_ h
      intro b
      match b with
      | ⟨0, _⟩ =>
        show 0 ≤ (rows1 wf).start j idx 0 + ((rows1 wf).window j 0 : ℕ) ∧
          (rows1 wf).start j idx 0 + ((rows1 wf).window j 0 : ℕ) < ((C : ℕ) : ℤ)
        rw [e0, hc]
        have := c.isLt
        omega

/-- The same, for an update index given by its coordinate. -/
theorem rows1_resultIdx?_ix1 (wf : ScatterDims.WF ⟨1, ![C]⟩ ⟨2, ![N, 1]⟩ ⟨1, ![N]⟩ [] [0] [0] 1)
    (n : Fin N) (idx : IVec ⟨2, ![N, 1]⟩ w) (c : Fin C) :
    (rows1 wf).resultIdx? (ix1 n) idx = some (ix1 c) ↔ (idx (ix2 n (0 : Fin 1))).toInt = (c.val : ℤ) :=
  rows1_resultIdx?_eq_some wf (ix1 n) idx c

/-- The vector scatter-add of the literal record, read at c. -/
theorem rows1_apply (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w)
    (upd : (⟨1, ![N]⟩ : Shape).Idx → EReal) (c : Fin C) :
    Ideal.hostScatterAdd (rows1 wf) x idx upd (ix1 c) =
      x (ix1 c) + ∑ n : Fin N, if (idx (ix2 n (0 : Fin 1))).toInt = (c.val : ℤ) then upd (ix1 n) else 0 := by
  unfold Ideal.hostScatterAdd
  congr 1
  rw [Finset.sum_filter, sum_idx1]
  refine Finset.sum_congr rfl fun n _ => ?_
  simp only [rows1_resultIdx?_ix1]

end Rows1

/-- ROW SCATTER-ADD AT AN ENTRY, operand [C]: for any dimension-number record with no update window axes,
    inserted window axes [0], scatter-dims-to-operand-dims [0] and index vector axis 1, the result at c is the
    operand there plus the sum of upd[n] over the positions n whose index word idx[n, 0], read signed, is c.
    Positions whose index word is negative or at least C contribute nothing. -/
theorem scatterRows1_apply {C N w : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![C]⟩ : Shape).Idx → EReal) (idx : IVec ⟨2, ![N, 1]⟩ w)
    (upd : (⟨1, ![N]⟩ : Shape).Idx → EReal) (c : Fin C) :
    Ideal.hostScatterAdd d x idx upd (ix1 c) =
      x (ix1 c) + ∑ n : Fin N, if (idx (ix2 n (0 : Fin 1))).toInt = (c.val : ℤ) then upd (ix1 n) else 0 := by
  obtain ⟨uw, iw, sd, iv, wf⟩ := d
  dsimp only at hu hi hs hv
  subst hu hi hs hv
  exact rows1_apply wf x idx upd c

end Idealize.ShloMosaic.ScatterRows

end
-- ==== Proof.RefMean.lean ====
/-
  THE REFERENCE'S RESULT IS THE PER-CLASS MEAN.

  The reference scatters the rows of the features into a zero array [1000, 512] by their labels, adding rows of equal
  label; scatters the constant one into a zero vector [1000] the same way; replaces each count below one by one; and
  divides each class's row of sums by its count. Read at entry (c, a):

    • the first scatter is 0 + ∑ n, (if label n reads c then x[n, a] else 0): a row lands at the class its label word
      reads as a signed integer, and a label that is negative or at least 1000 lands nowhere. A word reads c (c below
      1000, so below 2^31) exactly when it is the word of c, so each term is the row's weight for c times the entry,
      and the sum over the rows is the class's sum in column a;
    • the second scatter is 0 + ∑ n, (if label n reads c then 1 else 0), the class's number of rows: the float word of
      one denotes the real number one;
    • the divisor at (c, a) is the maximum of that count and the float word of one, broadcast along the columns.

  So the quotient at (c, a) is the class's sum over the count, a count below one taken as one: the mean.
-/
import proofs.«426212_j24893630447945_3_alg».proof.Proof.Gen.ReferenceIdeal.Read
import proofs.«426212_j24893630447945_3_alg».proof.Proof.Spec
import proofs.«426212_j24893630447945_3_alg».proof.Proof.LibScatterRows
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.SegMean
open Idealize.ShloMosaic Idealize.ShloMosaic.ValueIdx Idealize.ShloMosaic.ScatterRows

/-! ## Words -/

/-- A 32-bit word reads, as a signed integer, the natural number c below 2^31 exactly when it is the word of c. -/
theorem toInt_eq_natCast_iff (w : BitVec 32) (c : ℕ) (hc : c < 2 ^ 31) :
    w.toInt = (c : ℤ) ↔ w = BitVec.ofNat 32 c := by
  constructor
  · intro h
    have e : BitVec.ofInt 32 w.toInt = w := BitVec.ofInt_toInt
    rw [h, BitVec.ofInt_natCast] at e
    exact e.symm
  · rintro rfl
    rw [BitVec.toInt_eq_toNat_cond, BitVec.toNat_ofNat]
    have : c % 2 ^ 32 = c := Nat.mod_eq_of_lt (by omega)
    rw [this, if_pos (by omega)]

/-- So the choice "the entry if the word reads c, else zero" is the word's weight for c times the entry. -/
theorem ite_toInt_eq_hit_mul (w : BitVec 32) (c : ℕ) (hc : c < 2 ^ 31) (y : EReal) :
    (if w.toInt = (c : ℤ) then y else 0) = hit w c * y := by
  unfold hit
  by_cases h : w = BitVec.ofNat 32 c
  · rw [if_pos ((toInt_eq_natCast_iff w c hc).mpr h), if_pos h, one_mul]
  · rw [if_neg (mt (toInt_eq_natCast_iff w c hc).mp h), if_neg h, zero_mul]

/-- The float word of one denotes the real number one. -/
theorem ofBits_one_f32 : Ideal.ofBits .f32 0x3F800000#32 = 1 := IdealRules.sign_bit.ideal_onePat .f32

/-! ## The two scatters at an entry -/

/-- The index column of the labels, at row n, is label n. -/
theorem labelColumn_apply (x1 : (⟨S262144, .i32⟩ : BufTy).Contents (Elt Ideal)) (n : Fin 262144) :
    val_main_v1 (F := Ideal) x1 (ix2 n (0 : Fin 1)) = x1 (ix1 n) := by
  rw [val_main_v1_apply]
  congr 1
  funext a
  match a with
  | ⟨0, _⟩ => rfl

/-- The same for the second copy of the index column. -/
theorem labelColumn'_apply (x1 : (⟨S262144, .i32⟩ : BufTy).Contents (Elt Ideal)) (n : Fin 262144) :
    val_main_v5 (F := Ideal) x1 (ix2 n (0 : Fin 1)) = x1 (ix1 n) := by
  rw [val_main_v5_apply]
  congr 1
  funext a
  match a with
  | ⟨0, _⟩ => rfl

/-- The scatter of the rows, at (c, a), is class c's sum in column a. -/
theorem val_main_v2_entry (x0 : (⟨S262144x512, .f32⟩ : BufTy).Contents (Elt Ideal))
    (x1 : (⟨S262144, .i32⟩ : BufTy).Contents (Elt Ideal)) (c : Fin 1000) (a : Fin 512) :
    val_main_v2 (F := Ideal) x0 x1 (ix2 c a) = classSum x0 x1 c.val a := by
  have hc : c.val < 2 ^ 31 := by have := c.isLt; omega
  unfold val_main_v2 Host.scatterAdd
  rw [Ideal.hostScatterAdd_def, scatterRows2_apply _ rfl rfl rfl rfl, val_main_v0_apply, val_main_cst_apply,
    Ideal.ofBits_def, Ideal.ofBits_zero_f32, zero_add]
  unfold classSum
  rw [Finset.sum_fin_eq_sum_range]
  refine Finset.sum_congr rfl fun n hn => ?_
  have hn' : n < 262144 := Finset.mem_range.mp hn
  unfold rowTerm
  rw [dif_pos hn', dif_pos hn', labelColumn_apply, ite_toInt_eq_hit_mul _ _ hc]

/-- The scatter of ones, at c, is class c's number of rows. -/
theorem val_main_v6_entry (x1 : (⟨S262144, .i32⟩ : BufTy).Contents (Elt Ideal)) (c : Fin 1000) :
    val_main_v6 (F := Ideal) x1 (ix1 c) = classCnt x1 c.val := by
  have hc : c.val < 2 ^ 31 := by have := c.isLt; omega
  unfold val_main_v6 Host.scatterAdd
  rw [Ideal.hostScatterAdd_def, scatterRows1_apply _ rfl rfl rfl rfl, val_main_v4_apply, val_main_cst_1_apply,
    Ideal.ofBits_def, Ideal.ofBits_zero_f32, zero_add]
  unfold classCnt
  rw [Finset.sum_fin_eq_sum_range]
  refine Finset.sum_congr rfl fun n hn => ?_
  have hn' : n < 262144 := Finset.mem_range.mp hn
  unfold rowHit
  rw [dif_pos hn', dif_pos hn', labelColumn'_apply, ite_toInt_eq_hit_mul _ _ hc, val_main_v3_apply,
    val_main_cst_0_apply, Ideal.ofBits_def, ofBits_one_f32, mul_one]

/-- The divisor at (c, a): class c's count, a count below the float word of one replaced by it. -/
theorem val_main_v10_entry (x1 : (⟨S262144, .i32⟩ : BufTy).Contents (Elt Ideal)) (c : Fin 1000) (a : Fin 512) :
    val_main_v10 (F := Ideal) x1 (ix2 c a) = max (classCnt x1 c.val) (Ideal.ofBits .f32 0x3F800000#32) := by
  rw [val_main_v10_apply, val_main_v9_apply]
  have hi : idx_main_v9 (idx_main_v10 (ix2 c a)) = ix1 c := by
    funext b
    match b with
    | ⟨0, _⟩ => rfl
  rw [hi, val_main_v8_apply, Ideal.maximumf_def, val_main_v6_entry, val_main_v7_apply, val_main_cst_2_apply,
    Ideal.ofBits_def]

/-! ## The result -/

/-- THE REFERENCE'S RESULT IS THE PER-CLASS MEAN: at every entry (c, a), class c's sum in column a over its number
    of rows, a class with no row counted as one row. -/
theorem val_eq_mean (x0 : (⟨Cert.ReferenceIdeal.S262144x512, .f32⟩ : BufTy).Contents (Elt Ideal)) (x1 : (⟨Cert.ReferenceIdeal.S262144, .i32⟩ : BufTy).Contents (Elt Ideal)) :
    Cert.ReferenceIdeal.Read.val_main_v11 (F := Ideal) x0 x1 = Cert.SegMean.mean x0 x1 := by
  funext i
  obtain ⟨c, a, rfl⟩ : ∃ c a, i = ix2 c a := ⟨i 0, i 1, eq_ix2 i⟩
  rw [val_main_v11_apply, Ideal.hostDivf_def, val_main_v2_entry, val_main_v10_entry]
  rfl

end Cert.ReferenceIdeal.RefValue

end
-- ==== Proof.lean ====
/-
  The per-class mean of 262144 feature rows in 512 columns, grouped by their labels into 1000 classes.

  The kernel computes, for each half of the rows, the product of the half's one-hot matrix (class by row, built
  by comparing each label with the class numbers 0 … 1023) with the half's features, block of 4096 rows by block,
  accumulating the [1024, 512] products and the one-hot matrix's row sums across the 32 blocks of the half; the
  host then adds the two halves, keeps classes 0 … 999, and divides each class's sum by its number of rows, a
  class with no row counted as having one. The reference scatters the rows, and a vector of ones, into zero
  arrays by their labels, adding where labels coincide and dropping a label outside 0 … 999, and divides in the
  same way. Over the extended reals both are: at (c, a), the sum over the rows whose label is c of the entry in
  column a, over the larger of the number of such rows and one. A product with a weight that is one or zero is
  the entry or zero, so the one-hot product is the sum over the matching rows; a label outside 0 … 999 matches no
  kept class on either side; and a sum over all rows is the sum of its consecutive stretches in any grouping,
  since addition of extended reals is commutative and associative. The inputs' finiteness is not used.
  Rounding the one-hot matrix to bf16 and back changes nothing over the extended reals (the two entries of the
  idealization's ledger).
-/
import proofs.«426212_j24893630447945_3_alg».proof.Defs
import proofs.«426212_j24893630447945_3_alg».proof.Proof.Gen.Kernel
import proofs.«426212_j24893630447945_3_alg».proof.Proof.Gen.Kernel.Skeleton
import proofs.«426212_j24893630447945_3_alg».proof.Proof.Gen.Kernel.Launch
import proofs.«426212_j24893630447945_3_alg».proof.Proof.Gen.Kernel.Points
import proofs.«426212_j24893630447945_3_alg».proof.Proof.Gen.Kernel.Frame
import proofs.«426212_j24893630447945_3_alg».proof.Proof.Gen.KernelIdeal
import proofs.«426212_j24893630447945_3_alg».proof.Proof.Gen.KernelIdeal.Skeleton
import proofs.«426212_j24893630447945_3_alg».proof.Proof.Gen.KernelIdeal.Launch
import proofs.«426212_j24893630447945_3_alg».proof.Proof.Gen.KernelIdeal.Points
import proofs.«426212_j24893630447945_3_alg».proof.Proof.Gen.KernelIdeal.Frame
import proofs.«426212_j24893630447945_3_alg».proof.Proof.Gen.ReferenceIdeal
import proofs.«426212_j24893630447945_3_alg».proof.Proof.Gen.Pre_finite_inputs
import proofs.«426212_j24893630447945_3_alg».proof.Proof.Gen.ReferenceIdeal.Run
import proofs.«426212_j24893630447945_3_alg».proof.Proof.Gen.ReferenceIdeal.Read
import proofs.«426212_j24893630447945_3_alg».proof.Proof.Tail
import proofs.«426212_j24893630447945_3_alg».proof.Proof.RefMean
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's two entries: the one-hot matrix of each half rounded to bf16 and widened back is itself over the
    extended reals. -/
theorem preserves : Cert.preserves_Kernel_KernelIdeal :=
  ⟨IdealRules.truncf_extf.statement Cert.KernelIdeal.S1024x2048 .f32 .bf16,
   IdealRules.truncf_extf.statement Cert.KernelIdeal.S1024x2048 .f32 .bf16⟩

/-- Both programs end with the per-class mean of the features by the labels in their result buffer. -/
theorem algebraic : Cert.algebraic_KernelIdeal_ReferenceIdeal := by
  intro m ρ m' ρ' _ hagree
  refine ⟨fun c => Cert.SegMean.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tail.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.RefValue.val_eq_mean, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
